-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S32768x1024 .f32) (main_arg1 : FVec F S1024x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .i1⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .i1⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .i1⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .i1⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v1 : Ref sig .tc := ⟨.hbm, 20, rfl⟩
abbrev main_v2 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_v3 : Ref sig .tc := ⟨.hbm, 35, rfl⟩
abbrev main_v4 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_v5 : Ref sig .tc := ⟨.hbm, 50, rfl⟩
abbrev main_v6 : Ref sig .tc := ⟨.hbm, 51, rfl⟩
abbrev main_call3_cst : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_v7 : Ref sig .tc := ⟨.hbm, 65, rfl⟩
abbrev main_v8 : Ref sig .tc := ⟨.hbm, 66, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.MlpSpec.lean ====
/-
  The function both programs compute, stated once over the extended reals.

  A matrix is read as a function of a row and a column.  One hidden layer multiplies every row by a
  1024 × 1024 weight matrix (`dense`: the entry at column `j` of row `a` is the sum over `k` of
  `h a k * w k j`) and applies softplus to every entry (`act`).  The network `mlp` is four hidden
  layers followed by one more product.  Softplus is taken in the stable form
  `max z 0 + log (1 + exp (-|z|))`, with `|z| = max z (-z)`, which is how both programs spell it.

  Every entry of the result in row `a` depends on row `a` of the input only (`mlp_rows`): that is
  what lets a block of 512 rows be computed by itself.  `network` is the 32768 × 1024 result array.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Mlp

/-- Softplus on the extended reals: `max z 0 + log (1 + exp (-|z|))`, the absolute value as `max z (-z)`. -/
def softplus (z : EReal) : EReal := max z 0 + Ideal.log1p (Ideal.exp (-(max z (-z))))

/-- An array of rank two as a function of its row and its column. -/
def mat {r c : Nat} (A : (⟨2, ![r, c]⟩ : Shape).Idx → EReal) : Fin r → Fin c → EReal :=
  fun a b => A (ix2 a b)

/-- Rows times a 1024 × 1024 matrix: entry `j` of row `a` is `∑ k, h a k * w k j`. -/
def dense {ι : Type} (h : ι → Fin 1024 → EReal) (w : Fin 1024 → Fin 1024 → EReal) : ι → Fin 1024 → EReal :=
  fun a j => ∑ k : Fin 1024, h a k * w k j

/-- Softplus of every entry. -/
def act {ι : Type} (h : ι → Fin 1024 → EReal) : ι → Fin 1024 → EReal := fun a j => softplus (h a j)

/-- Four hidden layers (a product, then softplus) and a last product. -/
def mlp {ι : Type} (x : ι → Fin 1024 → EReal) (w1 w2 w3 w4 w5 : Fin 1024 → Fin 1024 → EReal) :
    ι → Fin 1024 → EReal :=
  dense (act (dense (act (dense (act (dense (act (dense x w1)) w2)) w3)) w4)) w5

/-- Row `a` of the result is a function of row `a` of the input: selecting rows before or after is the same. -/
theorem mlp_rows {ι κ : Type} (f : κ → ι) (x : ι → Fin 1024 → EReal)
    (w1 w2 w3 w4 w5 : Fin 1024 → Fin 1024 → EReal) (a : κ) (j : Fin 1024) :
    mlp (fun a => x (f a)) w1 w2 w3 w4 w5 a j = mlp x w1 w2 w3 w4 w5 (f a) j := rfl

/-- THE RESULT ARRAY: entry (a, j) of the 32768 × 1024 result is the network of the input's rows, at (a, j). -/
def network (x : (⟨2, ![32768, 1024]⟩ : Shape).Idx → EReal) (w1 w2 w3 w4 w5 : (⟨2, ![1024, 1024]⟩ : Shape).Idx → EReal) :
    (⟨2, ![32768, 1024]⟩ : Shape).Idx → EReal :=
  fun i => mlp (mat x) (mat w1) (mat w2) (mat w3) (mat w4) (mat w5) (i 0) (i 1)

/-- At an index given by its coordinates. -/
theorem network_ix2 (x : (⟨2, ![32768, 1024]⟩ : Shape).Idx → EReal) (w1 w2 w3 w4 w5 : (⟨2, ![1024, 1024]⟩ : Shape).Idx → EReal)
    (a : Fin 32768) (j : Fin 1024) :
    network x w1 w2 w3 w4 w5 (ix2 a j) = mlp (mat x) (mat w1) (mat w2) (mat w3) (mat w4) (mat w5) a j := rfl

/-- The kernel's spelling of one activation: `max z 0 + log1p (exp (0 - |z|))`, the zeros the f32 zero word. -/
theorem softplus_of_zero_sub (z : EReal) :
    FloatOps.addf (F := Ideal) (φ := .f32) (FloatOps.maximumf z (FloatOps.ofBits .f32 0x00000000#32))
      (FloatOps.log1p (FloatOps.exp (FloatOps.subf (FloatOps.ofBits .f32 0x00000000#32) (FloatOps.absf z))))
      = softplus z := by
  show max z (Ideal.ofBits .f32 0x00000000#32)
      + Ideal.log1p (Ideal.exp (Ideal.ofBits .f32 0x00000000#32 - max z (-z))) = softplus z
  rw [Ideal.ofBits_zero_f32, zero_sub]
  rfl

/-- The reference's spelling: with `d = z - 0`, the value `max z 0 + log1p (exp (-|d|))` unless `d ≠ d`, when it is
    `z + 0`.  No extended real differs from itself, so the guard never fires, and `z - 0 = z`. -/
theorem softplus_of_guarded (z : EReal) :
    Scalar.select
      (FloatOps.cmpf (F := Ideal) (φ := .f32) .une (FloatOps.subf z (FloatOps.ofBits .f32 0x00000000#32))
        (FloatOps.subf z (FloatOps.ofBits .f32 0x00000000#32)))
      (FloatOps.addf (F := Ideal) (φ := .f32) z (FloatOps.ofBits .f32 0x00000000#32))
      (FloatOps.addf (F := Ideal) (φ := .f32) (FloatOps.maximumf z (FloatOps.ofBits .f32 0x00000000#32))
        (FloatOps.hostUnary .log1p (FloatOps.hostUnary .exp
          (FloatOps.hostNegf (FloatOps.hostAbsf (FloatOps.subf z (FloatOps.ofBits .f32 0x00000000#32)))))))
      = softplus z := by
  show Scalar.select (Ideal.cmp .une (z - Ideal.ofBits .f32 0x00000000#32) (z - Ideal.ofBits .f32 0x00000000#32))
      (z + Ideal.ofBits .f32 0x00000000#32)
      (max z (Ideal.ofBits .f32 0x00000000#32)
        + Ideal.log1p (Ideal.exp (-(max (z - Ideal.ofBits .f32 0x00000000#32) (-(z - Ideal.ofBits .f32 0x00000000#32))))))
      = softplus z
  rw [Ideal.ofBits_zero_f32, sub_zero]
  have hne : Ideal.cmp .une z z = 0#1 := by
    simp [Ideal.cmp]
  rw [hne]
  rfl

end Cert.Mlp

end
-- ==== Proof.KernelBlock.lean ====
/-
  One 512-row block of the kernel, entry by entry.

  The body stores one value: five matrix products with four activations between them.  Each product
  rounds its left operand to bf16 (no change over the extended reals), takes the weight matrix as loaded,
  and accumulates into zeros; each activation is `max z 0 + log1p (exp (0 - |z|))`.  Written over any
  float values the stored value IS that composition (`stored_eq`); over the extended reals a product's
  entry (p, q) is the sum over k of the left operand at (p, k) times the weights at (k, q)
  (`product_entry`), an activation's entry is softplus of the entry (`activation_entry`), and so the
  block's entry (p, q) is the network `Cert.Mlp.mlp` of the block's rows at (p, q) (`stored_entry`).
-/
import proofs.«141606_j69286412419483_1_alg».proof.Proof.Gen.KernelIdeal.Skeleton
import proofs.«141606_j69286412419483_1_alg».proof.Proof.MlpSpec
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen Cert.Mlp
open scoped BigOperators

/-! ## The stored value as a composition, over any float values -/

section AnyValues
variable {F : FTy → Type} [FloatOps F]

/-- A block times a weight matrix as the body prints it: the block rounded to bf16, the weights as loaded, a zero accumulator. -/
def product (h : FVec F S512x1024 .f32) (w : Vec F S1024x1024 .bf16) : FVec F S512x1024 .f32 :=
  matmul dot_S512x1024_S1024x1024_S512x1024_1_0_0_1_n_n none (truncf .bf16 h bitsLt_bf16_f32)
    (shapeCast S1024x1024 w shapeCasts_S1024x1024_S1024x1024) (constant S512x1024 .f32 0x00000000#32)

/-- The activation as the body prints it: `max z 0 + log1p (exp (0 - |z|))` on every entry. -/
def activation (z : FVec F S512x1024 .f32) : FVec F S512x1024 .f32 :=
  addf (maximumf z (broadcast S512x1024 (Scalar.ofBits .f32 0x00000000#32)))
    (log1p (exp (subf (broadcast S512x1024 (Scalar.ofBits .f32 0x00000000#32)) (absf z))))

/-- The value the body stores, from the blocks it loads: four hidden layers and a last product. -/
theorem stored_eq (x0 : Vec F S512x1024 .f32) (x1 x2 x3 x4 x5 : Vec F S1024x1024 .bf16) :
    k0_pay1 (k0_pay2 x4) (k0_pay3 x5) (k0_pay5 x0 x1 x2 x3) (k0_pay6 x0 x1 x2 x3)
      = product (activation (product (activation (product (activation (product (activation (product x0 x1)) x2)) x3)) x4)) x5 :=
  rfl

end AnyValues

/-! ## Read at an entry, over the extended reals -/

/-- The product's left index at output (p, q) and contraction index k has row p … -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and column k; -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right index has row k … -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and column q. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of a product is the sum over k of the block at (p, k) times the weights at (k, q): the zero
    accumulator adds nothing, rounding to bf16 and the cast of a matrix to its own shape change nothing. -/
theorem product_entry (h : FVec Ideal S512x1024 .f32) (w : Vec Ideal S1024x1024 .bf16) (p : Fin 512) (q : Fin 1024) :
    product (F := Ideal) h w (ix2 p q) = ∑ k : Fin 1024, h (ix2 p k) * w (ix2 k q) := by
  unfold product
  rw [shapeCast_self]
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_row _ _).trans hk
    | ⟨1, _⟩ => exact rhs_col _ _)
  rw [el, er]
  rfl

/-- Entry (p, q) of an activation is softplus of the entry. -/
theorem activation_entry (z : FVec Ideal S512x1024 .f32) (p : Fin 512) (q : Fin 1024) :
    activation (F := Ideal) z (ix2 p q) = softplus (z (ix2 p q)) :=
  softplus_of_zero_sub (z (ix2 p q))

/-- A product of a block is the spec's `dense` of its rows. -/
theorem mat_product (h : FVec Ideal S512x1024 .f32) (w : Vec Ideal S1024x1024 .bf16) :
    mat (r := 512) (c := 1024) (product (F := Ideal) h w) = dense (mat (r := 512) (c := 1024) h) (mat (r := 1024) (c := 1024) w) :=
  funext fun p => funext fun q => product_entry h w p q

/-- An activation of a block is the spec's `act` of its rows. -/
theorem mat_activation (z : FVec Ideal S512x1024 .f32) :
    mat (r := 512) (c := 1024) (activation (F := Ideal) z) = act (mat (r := 512) (c := 1024) z) :=
  funext fun p => funext fun q => activation_entry z p q

/-- THE BLOCK: entry (p, q) of what the body stores is the network of the loaded block's rows, at (p, q). -/
theorem stored_entry (x0 : Vec Ideal S512x1024 .f32) (x1 x2 x3 x4 x5 : Vec Ideal S1024x1024 .bf16) (p : Fin 512) (q : Fin 1024) :
    k0_pay1 (F := Ideal) (k0_pay2 x4) (k0_pay3 x5) (k0_pay5 x0 x1 x2 x3) (k0_pay6 x0 x1 x2 x3) (ix2 p q)
      = mlp (mat (r := 512) (c := 1024) x0) (mat (r := 1024) (c := 1024) x1) (mat (r := 1024) (c := 1024) x2)
          (mat (r := 1024) (c := 1024) x3) (mat (r := 1024) (c := 1024) x4) (mat (r := 1024) (c := 1024) x5) p q := by
  rw [stored_eq]
  show mat (r := 512) (c := 1024) (product (activation (product (activation (product (activation (product (activation (product x0 x1)) x2)) x3)) x4)) x5) p q = _
  rw [mat_product, mat_activation, mat_product, mat_activation, mat_product, mat_activation, mat_product, mat_activation, mat_product]
  rfl

end Cert.KernelIdeal.Block

end
-- ==== Proof.KernelArray.lean ====
/-
  From the kernel's blocks to its whole result array.

  The grid has 64 points.  At point `t` the input window holds rows `512 t … 512 t + 511` of the
  input array, each weight window holds its whole matrix (converted to bf16 before the region, which
  changes nothing over the extended reals), and the output window's block is rows `512 t … 512 t + 511`
  of the result array.  By the block's value (`Cert.KernelIdeal.Block.stored_entry`) and because the
  network works row by row (`Cert.Mlp.mlp_rows`), what point `t` writes back is block `t` of
  `Cert.Mlp.network` of the argument arrays (`flushed_eq`).  Row `r` of the result lies in the block
  of point `r / 512`, so the blocks cover the array (`cover`), and the array ends holding the network
  (`final`, `run`).
-/
import proofs.«141606_j69286412419483_1_alg».proof.Proof.Gen.KernelIdeal.Value
import proofs.«141606_j69286412419483_1_alg».proof.Proof.KernelBlock
import proofs.«141606_j69286412419483_1_alg».proof.Proof.MlpSpec
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Block Cert.Mlp
open scoped BigOperators

variable (m : (ℓ : Loc nD τ sig) → Buf (Elt Ideal) ℓ) (ρ : Dev nD → PrngReg)

/-- The network of core `c`'s argument arrays: what the result array is to hold. -/
abbrev result (c : Dev nD) : S32768x1024.Idx → EReal :=
  network (m ((c : Thread nD τ).loc main_arg0) : S32768x1024.Idx → EReal)
    (m ((c : Thread nD τ).loc main_arg1) : S1024x1024.Idx → EReal) (m ((c : Thread nD τ).loc main_arg2) : S1024x1024.Idx → EReal)
    (m ((c : Thread nD τ).loc main_arg3) : S1024x1024.Idx → EReal) (m ((c : Thread nD τ).loc main_arg4) : S1024x1024.Idx → EReal)
    (m ((c : Thread nD τ).loc main_arg5) : S1024x1024.Idx → EReal)

theorem hz : (![0, 0] : Fin 2 → Nat) = fun _ => 0 := funext fun a => by fin_cases a <;> rfl

/-! ## The weight arrays the region finds: the arguments, rounded to bf16, which is no change here -/

theorem weights1 (c : Dev nD) : (V m c main_v0 : S1024x1024.Idx → EReal) = (m ((c : Thread nD τ).loc main_arg1) : S1024x1024.Idx → EReal) := by
  dsimp only [V, hostOps0]; after_results; rfl
theorem weights2 (c : Dev nD) : (V m c main_v1 : S1024x1024.Idx → EReal) = (m ((c : Thread nD τ).loc main_arg2) : S1024x1024.Idx → EReal) := by
  dsimp only [V, hostOps0]; after_results; rfl
theorem weights3 (c : Dev nD) : (V m c main_v2 : S1024x1024.Idx → EReal) = (m ((c : Thread nD τ).loc main_arg3) : S1024x1024.Idx → EReal) := by
  dsimp only [V, hostOps0]; after_results; rfl
theorem weights4 (c : Dev nD) : (V m c main_v3 : S1024x1024.Idx → EReal) = (m ((c : Thread nD τ).loc main_arg4) : S1024x1024.Idx → EReal) := by
  dsimp only [V, hostOps0]; after_results; rfl
theorem weights5 (c : Dev nD) : (V m c main_v4 : S1024x1024.Idx → EReal) = (m ((c : Thread nD τ).loc main_arg5) : S1024x1024.Idx → EReal) := by
  dsimp only [V, hostOps0]; after_results; rfl

/-! ## The index maps, decided over the 64 points -/

/-- The input's and the output's block index at point `t` is (t, 0); every weight window's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `512 t + p` of the array. -/
def rowOf (t : Fin cfg0.N) (p : Fin 512) : Fin 32768 :=
  ⟨512 * t.val + p.val, by have ht : t.val < 64 := lt_of_lt_of_eq t.isLt N_0; have hp := p.isLt; omega⟩

/-! ## The input windows' blocks -/

/-- The input block at point `t`, entry (p, k), is the input array at (512 t + p, k). -/
theorem input_block (c : Dev nD) (t : Fin cfg0.N) (p : Fin 512) (k : Fin 1024) :
    (iblk m c 0 t : S512x1024.Idx → EReal) (ix2 p k) = (m ((c : Thread nD τ).loc main_arg0) : S32768x1024.Idx → EReal) (ix2 (rowOf t p) k) := by
  obtain ⟨e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * t.val + p.val; rw [e00]; omega
  | ⟨1, _⟩ => show win0_0.index t (1 : Fin 2) * 1024 + 1 * k.val = k.val; rw [e01]; omega

/-- A weight window's block is its whole array, at every point. -/
theorem weight_block1 (c : Dev nD) (t : Fin cfg0.N) (k q : Fin 1024) :
    (iblk m c 1 t : S1024x1024.Idx → EReal) (ix2 k q) = (m ((c : Thread nD τ).loc main_arg1) : S1024x1024.Idx → EReal) (ix2 k q) := by
  obtain ⟨-, -, e0, e1, -⟩ := idx_facts t
  unfold iblk
  rw [View.read_apply]
  show (V m c main_v0 : S1024x1024.Idx → EReal) _ = _
  rw [weights1]
  congr 1
  funext a
  apply Fin.ext
  match a with
  | ⟨0, _⟩ => show win0_1.index t (0 : Fin 2) * 1024 + 1 * k.val = k.val; rw [e0]; omega
  | ⟨1, _⟩ => show win0_1.index t (1 : Fin 2) * 1024 + 1 * q.val = q.val; rw [e1]; omega
theorem weight_block2 (c : Dev nD) (t : Fin cfg0.N) (k q : Fin 1024) :
    (iblk m c 2 t : S1024x1024.Idx → EReal) (ix2 k q) = (m ((c : Thread nD τ).loc main_arg2) : S1024x1024.Idx → EReal) (ix2 k q) := by
  obtain ⟨-, -, -, -, e0, e1, -⟩ := idx_facts t
  unfold iblk
  rw [View.read_apply]
  show (V m c main_v1 : S1024x1024.Idx → EReal) _ = _
  rw [weights2]
  congr 1
  funext a
  apply Fin.ext
  match a with
  | ⟨0, _⟩ => show win0_2.index t (0 : Fin 2) * 1024 + 1 * k.val = k.val; rw [e0]; omega
  | ⟨1, _⟩ => show win0_2.index t (1 : Fin 2) * 1024 + 1 * q.val = q.val; rw [e1]; omega
theorem weight_block3 (c : Dev nD) (t : Fin cfg0.N) (k q : Fin 1024) :
    (iblk m c 3 t : S1024x1024.Idx → EReal) (ix2 k q) = (m ((c : Thread nD τ).loc main_arg3) : S1024x1024.Idx → EReal) (ix2 k q) := by
  obtain ⟨-, -, -, -, -, -, e0, e1, -⟩ := idx_facts t
  unfold iblk
  rw [View.read_apply]
  show (V m c main_v2 : S1024x1024.Idx → EReal) _ = _
  rw [weights3]
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega
theorem weight_block4 (c : Dev nD) (t : Fin cfg0.N) (k q : Fin 1024) :
    (iblk m c 4 t : S1024x1024.Idx → EReal) (ix2 k q) = (m ((c : Thread nD τ).loc main_arg4) : S1024x1024.Idx → EReal) (ix2 k q) := by
  obtain ⟨-, -, -, -, -, -, -, -, e0, e1, -⟩ := idx_facts t
  unfold iblk
  rw [View.read_apply]
  show (V m c main_v3 : S1024x1024.Idx → EReal) _ = _
  rw [weights4]
  congr 1
  funext a
  apply Fin.ext
  match a with
  | ⟨0, _⟩ => show win0_4.index t (0 : Fin 2) * 1024 + 1 * k.val = k.val; rw [e0]; omega
  | ⟨1, _⟩ => show win0_4.index t (1 : Fin 2) * 1024 + 1 * q.val = q.val; rw [e1]; omega
theorem weight_block5 (c : Dev nD) (t : Fin cfg0.N) (k q : Fin 1024) :
    (iblk m c 5 t : S1024x1024.Idx → EReal) (ix2 k q) = (m ((c : Thread nD τ).loc main_arg5) : S1024x1024.Idx → EReal) (ix2 k q) := by
  obtain ⟨-, -, -, -, -, -, -, -, -, -, e0, e1, -⟩ := idx_facts t
  unfold iblk
  rw [View.read_apply]
  show (V m c main_v4 : S1024x1024.Idx → EReal) _ = _
  rw [weights5]
  congr 1
  funext a
  apply Fin.ext
  match a with
  | ⟨0, _⟩ => show win0_5.index t (0 : Fin 2) * 1024 + 1 * k.val = k.val; rw [e0]; omega
  | ⟨1, _⟩ => show win0_5.index t (1 : Fin 2) * 1024 + 1 * q.val = q.val; rw [e1]; omega

/-! ## What a point writes back -/

/-- Entry (p, q) of what the body stores at point `t` is the network of the arguments at (512 t + p, q): the block's
    value is the network of the block's rows, the block's rows are rows `512 t + p` of the input, and the network
    works row by row. -/
theorem block_value (c : Dev nD) (t : Fin cfg0.N) (p : Fin 512) (q : Fin 1024) :
    k0_pay1 (F := Ideal) (k0_pay2 (iblk m c 4 t)) (k0_pay3 (iblk m c 5 t)) (k0_pay5 (iblk m c 0 t) (iblk m c 1 t) (iblk m c 2 t) (iblk m c 3 t))
        (k0_pay6 (iblk m c 0 t) (iblk m c 1 t) (iblk m c 2 t) (iblk m c 3 t)) (ix2 p q)
      = result m c (ix2 (rowOf t p) q) := by
  refine (stored_entry (iblk m c 0 t) (iblk m c 1 t) (iblk m c 2 t) (iblk m c 3 t) (iblk m c 4 t) (iblk m c 5 t) p q).trans ?_
  have hx : mat (r := 512) (c := 1024) (iblk m c 0 t)
      = fun p => mat (r := 32768) (c := 1024) (m ((c : Thread nD τ).loc main_arg0) : S32768x1024.Idx → EReal) (rowOf t p) :=
    funext fun p => funext fun k => input_block m c t p k
  have h1 : mat (r := 1024) (c := 1024) (iblk m c 1 t) = mat (r := 1024) (c := 1024) (m ((c : Thread nD τ).loc main_arg1) : S1024x1024.Idx → EReal) :=
    funext fun k => funext fun q => weight_block1 m c t k q
  have h2 : mat (r := 1024) (c := 1024) (iblk m c 2 t) = mat (r := 1024) (c := 1024) (m ((c : Thread nD τ).loc main_arg2) : S1024x1024.Idx → EReal) :=
    funext fun k => funext fun q => weight_block2 m c t k q
  have h3 : mat (r := 1024) (c := 1024) (iblk m c 3 t) = mat (r := 1024) (c := 1024) (m ((c : Thread nD τ).loc main_arg3) : S1024x1024.Idx → EReal) :=
    funext fun k => funext fun q => weight_block3 m c t k q
  have h4 : mat (r := 1024) (c := 1024) (iblk m c 4 t) = mat (r := 1024) (c := 1024) (m ((c : Thread nD τ).loc main_arg4) : S1024x1024.Idx → EReal) :=
    funext fun k => funext fun q => weight_block4 m c t k q
  have h5 : mat (r := 1024) (c := 1024) (iblk m c 5 t) = mat (r := 1024) (c := 1024) (m ((c : Thread nD τ).loc main_arg5) : S1024x1024.Idx → EReal) :=
    funext fun k => funext fun q => weight_block5 m c t k q
  rw [hx, h1, h2, h3, h4, h5]
  exact mlp_rows (rowOf t) _ _ _ _ _ _ p q

/-- An index of the result array is in point `t`'s block iff each coordinate is in the block's range on its axis. -/
theorem mem_blk (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v5).slice (win0_6.rect t)).set ↔ _
  rw [View.set_slice_whole, Rect.mem_set_unit]
  exact Iff.rfl

/-- WHAT POINT `t` WRITES BACK is block `t` of the network of the argument arrays. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S512x1024) hz, View.ld_unit_zero (S := S1024x1024) hz]
  obtain ⟨-, -, -, -, -, -, -, -, -, -, -, -, e60, e61⟩ := idx_facts t
  funext y
  obtain ⟨p, q, rfl⟩ : ∃ (p : Fin 512) (q : Fin 1024), y = ix2 p q := ⟨y 0, y 1, eq_ix2 y⟩
  show k0_pay1 (F := Ideal) (k0_pay2 (iblk m c 4 t)) (k0_pay3 (iblk m c 5 t)) (k0_pay5 (iblk m c 0 t) (iblk m c 1 t) (iblk m c 2 t) (iblk m c 3 t))
        (k0_pay6 (iblk m c 0 t) (iblk m c 1 t) (iblk m c 2 t) (iblk m c 3 t)) (ix2 p q)
      = result m c (((cfg0.win 6).blk t).view.emb (ix2 p q))
  rw [block_value]
  congr 1
  funext a
  apply Fin.ext
  match a with
  | ⟨0, _⟩ => show 512 * t.val + p.val = win0_6.index t (0 : Fin 2) * 512 + 1 * p.val; rw [e60]; omega
  | ⟨1, _⟩ => show q.val = win0_6.index t (1 : Fin 2) * 1024 + 1 * q.val; rw [e61]; omega

/-- Every index of the result array is in some point's block: row `r` in that of point `r / 512`. -/
theorem cover (i : S32768x1024.Idx) : ∃ t : Fin cfg0.N, (cfg0.win 6).flush t = true ∧ i ∈ ((cfg0.win 6).blk t).view.set := by
  have hi0 : (i 0).val < 32768 := idx2_lt0 i
  have hi1 : (i 1).val < 1024 := idx2_lt1 i
  have hN : cfg0.N = 64 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; rw [e60, ht]; omega
  | ⟨1, _⟩ => show win0_6.index t (1 : Fin 2) * 1024 ≤ (i 1).val ∧ (i 1).val < win0_6.index t (1 : Fin 2) * 1024 + 1024; rw [e61]; omega

/-- THE RESULT ARRAY after the run is the network of the argument arrays. -/
theorem final (c : Dev nD) : (dats m 0 c).arrAt 6 cfg0.N = result m c :=
  (dats m 0 c).arrAt_eq_of_cover 6 (result m c) (fun t _ => flushed_eq m c t) cover

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefLayers.lean ====
/-
  The reference, layer by layer.

  @main is five host products with @softplus inlined between them.  On an array `z` the softplus body
  computes, with `d = z - 0`, the value `max z 0 + log1p (exp (-|d|))` wherever `d = d` and `z + 0`
  elsewhere (`guarded`); over the extended reals that is softplus of every entry (`guarded_entry`).  A
  host product's entry (a, j) is the sum over k of the left operand at (a, k) times the right at (k, j)
  (`mat_product`, from the stage lemma of the first product).  Each stage of the program is one of the
  two applied to the stage before (`layer1` … `layer4`, `last`), so the result array is the network
  `Cert.Mlp.network` of the arguments (`result_eq`).
-/
import proofs.«141606_j69286412419483_1_alg».proof.Proof.RefRead
import proofs.«141606_j69286412419483_1_alg».proof.Proof.MlpSpec

noncomputable section

namespace Cert.ReferenceIdeal.Layers

open Idealize.ShloMosaic Idealize.ShloMosaic.ValueIdx Cert.ReferenceIdeal Cert.ReferenceIdeal.Gen Cert.ReferenceIdeal.ReadP Cert.Mlp
open scoped BigOperators

/-! ## The stages as two operations, over any float values -/

section AnyValues
variable {F : FTy → Type} [FloatOps F]

/-- The zero array the softplus body broadcasts from its scalar constant. -/
def zeros : (⟨S32768x1024, .f32⟩ : BufTy).Contents (Elt F) :=
  broadcastInDim S32768x1024 ![] bcast_S_S32768x1024 (constant S_ .f32 0x00000000#32)

/-- @softplus's body on an array `z`: with `d = z - 0`, select `z + 0` where `d ≠ d`, else `max z 0 + log1p (exp (-|d|))`. -/
def guarded (z : (⟨S32768x1024, .f32⟩ : BufTy).Contents (Elt F)) : (⟨S32768x1024, .f32⟩ : BufTy).Contents (Elt F) :=
  select (cmpf .une (subf z zeros) (subf z zeros)) (addf z zeros)
    (addf (maximumf z zeros) (Host.log1p (Host.exp (Host.negf (Host.absf (subf z zeros))))))

/-- The host's product of a 32768 × 1024 array with a 1024 × 1024 matrix. -/
def product (l : (⟨S32768x1024, .f32⟩ : BufTy).Contents (Elt F)) (r : (⟨S1024x1024, .f32⟩ : BufTy).Contents (Elt F)) :
    (⟨S32768x1024, .f32⟩ : BufTy).Contents (Elt F) :=
  Host.dotGeneral dot_S32768x1024_S1024x1024_S32768x1024_1_0_0_1_n_n none l r

variable (x0 : (⟨S32768x1024, .f32⟩ : BufTy).Contents (Elt F)) (x1 x2 x3 x4 x5 : (⟨S1024x1024, .f32⟩ : BufTy).Contents (Elt F))

/-- The first hidden layer's stage is softplus of the first product. -/
theorem layer1 : val_main_v1 (F := F) x0 x1 = guarded (product x0 x1) := rfl
/-- The second, of the product of the first with the second weights. -/
theorem layer2 : val_main_v3 (F := F) x0 x1 x2 = guarded (product (val_main_v1 (F := F) x0 x1) x2) := rfl
/-- The third. -/
theorem layer3 : val_main_v5 (F := F) x0 x1 x2 x3 = guarded (product (val_main_v3 (F := F) x0 x1 x2) x3) := rfl
/-- The fourth. -/
theorem layer4 : val_main_v7 (F := F) x0 x1 x2 x3 x4 = guarded (product (val_main_v5 (F := F) x0 x1 x2 x3) x4) := rfl
/-- The result is the product of the fourth hidden layer with the last weights. -/
theorem last : val_main_v8 (F := F) x0 x1 x2 x3 x4 x5 = product (val_main_v7 (F := F) x0 x1 x2 x3 x4) x5 := rfl

end AnyValues

/-! ## Read at an entry, over the extended reals -/

/-- The broadcast zero is the f32 zero word's value at every index. -/
theorem zeros_entry (i : S32768x1024.Idx) : zeros (F := Ideal) i = FloatOps.ofBits (F := Ideal) .f32 0x00000000#32 :=
  broadcastInDim_apply _ bcast_S_S32768x1024 (constant (F := Ideal) S_ .f32 0x00000000#32) i (fun a => a.elim0) (fun a => a.elim0)

/-- The softplus body at an entry is softplus of the entry: nothing differs from itself, and `z - 0 = z`. -/
theorem guarded_entry (z : (⟨S32768x1024, .f32⟩ : BufTy).Contents (Elt Ideal)) (i : S32768x1024.Idx) :
    guarded (F := Ideal) z i = softplus (z i) := by
  show Scalar.select
      (FloatOps.cmpf (F := Ideal) (φ := .f32) .une (FloatOps.subf (z i) (zeros (F := Ideal) i)) (FloatOps.subf (z i) (zeros (F := Ideal) i)))
      (FloatOps.addf (F := Ideal) (φ := .f32) (z i) (zeros (F := Ideal) i))
      (FloatOps.addf (F := Ideal) (φ := .f32) (FloatOps.maximumf (z i) (zeros (F := Ideal) i))
        (FloatOps.hostUnary .log1p (FloatOps.hostUnary .exp
          (FloatOps.hostNegf (FloatOps.hostAbsf (FloatOps.subf (z i) (zeros (F := Ideal) i)))))))
      = softplus (z i)
  rw [zeros_entry]
  exact softplus_of_guarded (z i)

/-- A product's left index at output (a, j) and k is (a, k) … -/
theorem lidx_at (a : Fin 32768) (j k : Fin 1024) : lidx_main_v0 (ix2 a j) k = ix2 a k :=
  funext fun d => by match d with | ⟨0, _⟩ => rfl | ⟨1, _⟩ => rfl
/-- … and its right index is (k, j). -/
theorem ridx_at (a : Fin 32768) (j k : Fin 1024) : ridx_main_v0 (ix2 a j) k = ix2 k j :=
  funext fun d => by match d with | ⟨0, _⟩ => rfl | ⟨1, _⟩ => rfl

/-- A host product is the spec's `dense` of the left operand's rows. -/
theorem mat_product (l : (⟨S32768x1024, .f32⟩ : BufTy).Contents (Elt Ideal)) (r : (⟨S1024x1024, .f32⟩ : BufTy).Contents (Elt Ideal)) :
    mat (r := 32768) (c := 1024) (product (F := Ideal) l r) = dense (mat (r := 32768) (c := 1024) l) (mat (r := 1024) (c := 1024) r) := by
  funext a j
  show val_main_v0 (F := Ideal) l r (ix2 a j) = ∑ k : Fin 1024, l (ix2 a k) * r (ix2 k j)
  rw [val_main_v0_apply]
  refine Finset.sum_congr rfl fun k _ => ?_
  rw [lidx_at, ridx_at]

/-- The softplus body is the spec's `act`. -/
theorem mat_guarded (z : (⟨S32768x1024, .f32⟩ : BufTy).Contents (Elt Ideal)) :
    mat (r := 32768) (c := 1024) (guarded (F := Ideal) z) = act (mat (r := 32768) (c := 1024) z) :=
  funext fun a => funext fun j => guarded_entry z (ix2 a j)

/-- THE REFERENCE'S RESULT is the network of its arguments. -/
theorem result_eq (x0 : (⟨S32768x1024, .f32⟩ : BufTy).Contents (Elt Ideal)) (x1 x2 x3 x4 x5 : (⟨S1024x1024, .f32⟩ : BufTy).Contents (Elt Ideal)) :
    val_main_v8 (F := Ideal) x0 x1 x2 x3 x4 x5 = network x0 x1 x2 x3 x4 x5 := by
  funext i
  obtain ⟨a, j, rfl⟩ : ∃ (a : Fin 32768) (j : Fin 1024), i = ix2 a j := ⟨i 0, i 1, eq_ix2 i⟩
  rw [network_ix2]
  show mat (r := 32768) (c := 1024) (val_main_v8 (F := Ideal) x0 x1 x2 x3 x4 x5) a j = _
  rw [last, mat_product, layer4, mat_guarded, mat_product, layer3, mat_guarded, mat_product, layer2, mat_guarded, mat_product,
    layer1, mat_guarded, mat_product]
  rfl

end Cert.ReferenceIdeal.Layers

end
-- ==== Proof.lean ====
/-
  A five-layer perceptron: four hidden layers `softplus (h · W)` and a last product `h · W₅`, on a
  32768 × 1024 input with 1024 × 1024 weights, no biases.

  The kernel walks the rows in 64 blocks of 512.  For each block it rounds the block and the weights to
  bf16, multiplies into a zero accumulator, and applies `max z 0 + log1p (exp (0 - |z|))`; the reference
  multiplies the whole arrays on the host and applies `max z 0 + log1p (exp (-|z - 0|))` unless
  `z - 0` differs from itself.  Over the extended reals rounding is the identity, a product into zeros is
  the plain sum over the contracted axis on both sides, nothing differs from itself, `z - 0 = z` and
  `0 - a = -a`: layer by layer the two programs compute one function, `Cert.Mlp.network` (Proof/MlpSpec.lean),
  and since every row of the result depends on its own row of the input only, the 64 blocks are exactly
  the blocks of that one array.  No law used needs the inputs finite, so the precondition is never opened.

  Proof/KernelBlock.lean reads one block of the kernel entry by entry; Proof/KernelArray.lean goes from
  the blocks to the whole result array and states the kernel's run; Proof/RefLayers.lean reads the
  reference's stages (over Proof/RefRead.lean and Proof/RefRun.lean, the reference's run and its
  read-at-an-index lemmas) and states its result.  The word-level kernel's frame and the idealized
  kernel's are the generated ones; `preserves` has no conjunct.
-/
import proofs.«141606_j69286412419483_1_alg».proof.Defs
import proofs.«141606_j69286412419483_1_alg».proof.Proof.Gen.Kernel
import proofs.«141606_j69286412419483_1_alg».proof.Proof.Gen.Kernel.Skeleton
import proofs.«141606_j69286412419483_1_alg».proof.Proof.Gen.Kernel.Launch
import proofs.«141606_j69286412419483_1_alg».proof.Proof.Gen.Kernel.Points
import proofs.«141606_j69286412419483_1_alg».proof.Proof.Gen.Kernel.Frame
import proofs.«141606_j69286412419483_1_alg».proof.Proof.Gen.KernelIdeal
import proofs.«141606_j69286412419483_1_alg».proof.Proof.Gen.KernelIdeal.Skeleton
import proofs.«141606_j69286412419483_1_alg».proof.Proof.Gen.KernelIdeal.Launch
import proofs.«141606_j69286412419483_1_alg».proof.Proof.Gen.KernelIdeal.Points
import proofs.«141606_j69286412419483_1_alg».proof.Proof.Gen.KernelIdeal.Frame
import proofs.«141606_j69286412419483_1_alg».proof.Proof.Gen.ReferenceIdeal
import proofs.«141606_j69286412419483_1_alg».proof.Proof.Gen.Pre_finite_inputs
import proofs.«141606_j69286412419483_1_alg».proof.Proof.Gen.KernelIdeal.Value
import proofs.«141606_j69286412419483_1_alg».proof.Proof.RefRun
import proofs.«141606_j69286412419483_1_alg».proof.Proof.RefRead
import proofs.«141606_j69286412419483_1_alg».proof.Proof.MlpSpec
import proofs.«141606_j69286412419483_1_alg».proof.Proof.KernelBlock
import proofs.«141606_j69286412419483_1_alg».proof.Proof.KernelArray
import proofs.«141606_j69286412419483_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments the kernel's result array ends at the network of its arguments
    (Proof/KernelArray.lean) and the reference's at the network of its own (Proof/RefLayers.lean): the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v8_eq, Cert.ReferenceIdeal.Layers.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
